-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S64x100000x4 : Shape := ⟨3, ![64, 100000, 4]⟩
abbrev S_ : Shape := ⟨0, ![]⟩

class Facts : Prop where

variable [Facts]

def fn {F : FTy → Type} [FloatOps F] (main_arg0 : IVec S64x100000x4 32) : IVec S_ 1 :=
  let main_c : IVec S_ 1 := constantI S_ 1 1#1
  main_c
-- ==== Kernel.lean ====
abbrev S64x100000x4 : Shape := ⟨3, ![64, 100000, 4]⟩
abbrev S64x100000x8 : Shape := ⟨3, ![64, 100000, 8]⟩
abbrev S16x400x4 : Shape := ⟨3, ![16, 400, 4]⟩
abbrev S16x400x8 : Shape := ⟨3, ![16, 400, 8]⟩
abbrev S16x400x1 : Shape := ⟨3, ![16, 400, 1]⟩
abbrev S16x400 : Shape := ⟨2, ![16, 400]⟩
abbrev S64x100000x4x2 : Shape := ⟨4, ![64, 100000, 4, 2]⟩

abbrev nBuf : Space → Nat
  | .hbm => 3
  | .vmem => 4
  | .smem => 0
  | _ => 0

abbrev bufTy : (tb : Table) → Fin (tcTables nBuf tb) → BufTy
  | .hbm, ⟨0, _⟩ => ⟨S64x100000x4, .i32⟩
  | .hbm, ⟨1, _⟩ => ⟨S64x100000x8, .i32⟩
  | .hbm, ⟨2, _⟩ => ⟨S64x100000x4x2, .i32⟩
  | .local _ .vmem, ⟨0, _⟩ => ⟨S16x400x4, .i32⟩
  | .local _ .vmem, ⟨1, _⟩ => ⟨S16x400x4, .i32⟩
  | .local _ .vmem, ⟨2, _⟩ => ⟨S16x400x8, .i32⟩
  | .local _ .vmem, ⟨3, _⟩ => ⟨S16x400x8, .i32⟩
  | _, _ => ⟨S64x100000x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 250], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S16x400x4 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x400x8 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S16x400x4_S16x400x4_0_0_0 : ∀ a, (![0, 0, 0] : Fin 3 → Nat) a + S16x400x4.size a ≤ S16x400x4.size a
  h_S16x400x4 : 0 < S16x400x4.numel
  slices_S16x400x4_o0_0_0_S16x400x1 : S16x400x4.Slices ![0, 0, 0] S16x400x1
  shapeCasts_S16x400x1_S16x400 : S16x400x1.ShapeCasts S16x400
  slices_S16x400x4_o0_0_1_S16x400x1 : S16x400x4.Slices ![0, 0, 1] S16x400x1
  slices_S16x400x4_o0_0_2_S16x400x1 : S16x400x4.Slices ![0, 0, 2] S16x400x1
  slices_S16x400x4_o0_0_3_S16x400x1 : S16x400x4.Slices ![0, 0, 3] S16x400x1
  shapeCasts_S16x400_S16x400x1 : S16x400.ShapeCasts S16x400x1
  concatenates_S16x400x1_S16x400x1_S16x400x1_S16x400x1_S16x400x1_S16x400x1_S16x400x1_S16x400x1_S16x400x8_d2 : Shape.Concatenates [S16x400x1, S16x400x1, S16x400x1, S16x400x1, S16x400x1, S16x400x1, S16x400x1, S16x400x1] S16x400x8 2
  inb_S16x400x8_S16x400x8_0_0_0 : ∀ a, (![0, 0, 0] : Fin 3 → Nat) a + S16x400x8.size a ≤ S16x400x8.size a
  h_S16x400x8 : 0 < S16x400x8.numel
  shapeCasts_S64x100000x8_S64x100000x4x2 : S64x100000x8.ShapeCasts S64x100000x4x2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x400x4.size a ≤ S64x100000x4.size a
  hwx0_0 : ∀ i : grid0.Coords, EltTy.bits .i32 = 32 ∨ (Rect.block (s := S64x100000x4) S16x400x4.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x400x8.size a ≤ S64x100000x8.size a
  hwx0_1 : ∀ i : grid0.Coords, EltTy.bits .i32 = 32 ∨ (Rect.block (s := S64x100000x8) S16x400x8.size (cc0_transform_1 i) (hinb0_1 i)).WholeWords (EltTy.packing .i32)

variable [Facts₀]

abbrev win0_0 : Pipeline.Window sig grid0 :=
  Pipeline.Window.ofSpec (Memref.whole main_arg0) S16x400x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x400x8.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x100000x4 : Shape := ⟨3, ![64, 100000, 4]⟩
abbrev S64x100000x1 : Shape := ⟨3, ![64, 100000, 1]⟩
abbrev S64x100000 : Shape := ⟨2, ![64, 100000]⟩
abbrev S_ : Shape := ⟨0, ![]⟩
abbrev S64x100000x2 : Shape := ⟨3, ![64, 100000, 2]⟩
abbrev S64x100000x1x2 : Shape := ⟨4, ![64, 100000, 1, 2]⟩
abbrev S64x100000x4x2 : Shape := ⟨4, ![64, 100000, 4, 2]⟩

abbrev nBuf : Space → Nat
  | .hbm => 40
  | .vmem => 0
  | .smem => 0
  | _ => 0

abbrev bufTy : (tb : Table) → Fin (tcTables nBuf tb) → BufTy
  | .hbm, ⟨0, _⟩ => ⟨S64x100000x4, .i32⟩
  | .hbm, ⟨1, _⟩ => ⟨S64x100000x1, .i32⟩
  | .hbm, ⟨2, _⟩ => ⟨S64x100000, .i32⟩
  | .hbm, ⟨3, _⟩ => ⟨S64x100000x1, .i32⟩
  | .hbm, ⟨4, _⟩ => ⟨S64x100000, .i32⟩
  | .hbm, ⟨5, _⟩ => ⟨S64x100000x1, .i32⟩
  | .hbm, ⟨6, _⟩ => ⟨S64x100000, .i32⟩
  | .hbm, ⟨7, _⟩ => ⟨S64x100000x1, .i32⟩
  | .hbm, ⟨8, _⟩ => ⟨S64x100000, .i32⟩
  | .hbm, ⟨9, _⟩ => ⟨S_, .i32⟩
  | .hbm, ⟨10, _⟩ => ⟨S64x100000, .i32⟩
  | .hbm, ⟨11, _⟩ => ⟨S64x100000, .i32⟩
  | .hbm, ⟨12, _⟩ => ⟨S64x100000, .i32⟩
  | .hbm, ⟨13, _⟩ => ⟨S_, .i32⟩
  | .hbm, ⟨14, _⟩ => ⟨S64x100000, .i32⟩
  | .hbm, ⟨15, _⟩ => ⟨S64x100000, .i32⟩
  | .hbm, ⟨16, _⟩ => ⟨S_, .i32⟩
  | .hbm, ⟨17, _⟩ => ⟨S64x100000, .i32⟩
  | .hbm, ⟨18, _⟩ => ⟨S64x100000, .i32⟩
  | .hbm, ⟨19, _⟩ => ⟨S64x100000, .i32⟩
  | .hbm, ⟨20, _⟩ => ⟨S_, .i32⟩
  | .hbm, ⟨21, _⟩ => ⟨S64x100000, .i32⟩
  | .hbm, ⟨22, _⟩ => ⟨S64x100000, .i32⟩
  | .hbm, ⟨23, _⟩ => ⟨S64x100000x1, .i32⟩
  | .hbm, ⟨24, _⟩ => ⟨S64x100000x1, .i32⟩
  | .hbm, ⟨25, _⟩ => ⟨S64x100000x2, .i32⟩
  | .hbm, ⟨26, _⟩ => ⟨S64x100000x1, .i32⟩
  | .hbm, ⟨27, _⟩ => ⟨S64x100000x1, .i32⟩
  | .hbm, ⟨28, _⟩ => ⟨S64x100000x2, .i32⟩
  | .hbm, ⟨29, _⟩ => ⟨S64x100000x1, .i32⟩
  | .hbm, ⟨30, _⟩ => ⟨S64x100000x1, .i32⟩
  | .hbm, ⟨31, _⟩ => ⟨S64x100000x2, .i32⟩
  | .hbm, ⟨32, _⟩ => ⟨S64x100000x1, .i32⟩
  | .hbm, ⟨33, _⟩ => ⟨S64x100000x1, .i32⟩
  | .hbm, ⟨34, _⟩ => ⟨S64x100000x2, .i32⟩
  | .hbm, ⟨35, _⟩ => ⟨S64x100000x1x2, .i32⟩
  | .hbm, ⟨36, _⟩ => ⟨S64x100000x1x2, .i32⟩
  | .hbm, ⟨37, _⟩ => ⟨S64x100000x1x2, .i32⟩
  | .hbm, ⟨38, _⟩ => ⟨S64x100000x1x2, .i32⟩
  | .hbm, ⟨39, _⟩ => ⟨S64x100000x4x2, .i32⟩
  | _, _ => ⟨S64x100000x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c_0 : Ref sig .tc := ⟨.hbm, 13, rfl⟩
abbrev main_v11 : Ref sig .tc := ⟨.hbm, 14, rfl⟩
abbrev main_v12 : Ref sig .tc := ⟨.hbm, 15, rfl⟩
abbrev main_c_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩

abbrev nD : Nat := 1
abbrev τ : Topo := Topo.v7x

variable {F : FTy → Type} [FloatOps F]

class Facts₀ : Prop where
  slices_S64x100000x4_S64x100000x1_0_0_0 : S64x100000x4.Slices ![0, 0, 0] S64x100000x1
  shapeCasts_S64x100000x1_S64x100000 : S64x100000x1.ShapeCasts S64x100000
  slices_S64x100000x4_S64x100000x1_0_0_1 : S64x100000x4.Slices ![0, 0, 1] S64x100000x1
  slices_S64x100000x4_S64x100000x1_0_0_2 : S64x100000x4.Slices ![0, 0, 2] S64x100000x1
  slices_S64x100000x4_S64x100000x1_0_0_3 : S64x100000x4.Slices ![0, 0, 3] S64x100000x1
  bcast_S_S64x100000 : S_.BroadcastsInDim S64x100000 (![] : Fin 0 → Fin S64x100000.rank)
  bcast_S64x100000_S64x100000x1_0_1 : S64x100000.BroadcastsInDim S64x100000x1 (![0, 1] : Fin 2 → Fin S64x100000x1.rank)
  concatenates_S64x100000x1_S64x100000x1_S64x100000x2_d2 : Shape.Concatenates [S64x100000x1, S64x100000x1] S64x100000x2 2
  bcast_S64x100000x2_S64x100000x1x2_0_1_3 : S64x100000x2.BroadcastsInDim S64x100000x1x2 (![0, 1, 3] : Fin 3 → Fin S64x100000x1x2.rank)
  concatenates_S64x100000x1x2_S64x100000x1x2_S64x100000x1x2_S64x100000x1x2_S64x100000x4x2_d2 : Shape.Concatenates [S64x100000x1x2, S64x100000x1x2, S64x100000x1x2, S64x100000x1x2] S64x100000x4x2 2

variable [Facts₀]

class Facts : Prop extends Facts₀ where

variable [Facts]
-- ==== Proof.LibRecordPlanes.lean ====
/-
  Records laid out along the last axis of a rank-3 array: `[B, N, K]` holds, for each of `B` batch rows and `N` records,
  the `K` words of a record. The lemmas below read, at an index given by its coordinates, the layout operations that take
  such an array apart and put one together — at ANY extents `B`, `N` and any element type:

  * `field_plane_apply` — field `f` of every record as a plane `[B, N]` (the unit-stride slice `[0:B, 0:N, f:f+1]` with its
    unit axis dropped by a shape cast) read at `(b, n)` is the array at `(b, n, f)`;
  * `plane_cast_unit_apply`, `plane_bcast_unit_apply` — a plane `[B, N]` given a trailing unit axis, by a shape cast or by a
    `broadcast_in_dim` along `[0, 1]`, read at `(b, n, u)` is the plane at `(b, n)`;
  * `insert_unit_bcast_apply` — `[B, N, M]` given a unit axis before its last one (`broadcast_in_dim` along `[0, 1, 3]`) read
    at `(b, n, u, s)` is the array at `(b, n, s)`;
  * `split_eight_apply` — `[B, N, 8]` viewed row-major as `[B, N, 4, 2]` read at `(b, n, r, s)` is the array at `(b, n, 2r + s)`;
  * `stack3_apply`, `stack4_apply` — a concatenation along axis 2 of pieces whose extent there is one, into `[B, N, K]` or
    `[B, N, R, M]`, read at an index whose axis-2 coordinate is `k`, is piece `k` at the same other coordinates.
-/
import Idealize.ShloMosaic.Lib.ValueIdx
import Idealize.ShloMosaic.Lib.Pipeline.Value

noncomputable section

namespace Cert.Lib.RecordPlanes

open Idealize.ShloMosaic Idealize.ShloMosaic.ValueIdx

variable {α : Type} {B N : Nat}

/-- Field `f` of every record, as a plane: the slice at offset `f` on the last axis, its unit axis dropped, read at
    `(b, n)` is the array at `(b, n, f)`. -/
theorem field_plane_apply {K : Nat} (f : Nat) (x : (⟨3, ![B, N, K]⟩ : Shape).Idx → α)
    (hs : (⟨3, ![B, N, K]⟩ : Shape).Slices ![0, 0, f] ⟨3, ![B, N, 1]⟩)
    (hc : (⟨3, ![B, N, 1]⟩ : Shape).ShapeCasts ⟨2, ![B, N]⟩)
    (b : Fin B) (n : Fin N) (k : Fin K) (hk : k.val = f) :
    shapeCast ⟨2, ![B, N]⟩ (extractStridedSlice ⟨3, ![B, N, 1]⟩ ![0, 0, f] x hs) hc (ix2 b n) = x (ix3 b n k) := by
  refine (shapeCast_apply _ hc (ix2 b n) (ix3 b n (0 : Fin 1)) ?_).trans ?_
  · rw [Shape.rowMajor_val_three, Shape.rowMajor_val_two]
    show (b.val * N + n.val) * 1 + 0 = b.val * N + n.val
    omega
  · exact extractStridedSlice_apply _ x hs _ (ix3 b n k) (fun a => match a with
      | ⟨0, _⟩ => by show b.val = 0 + b.val; omega
      | ⟨1, _⟩ => by show n.val = 0 + n.val; omega
      | ⟨2, _⟩ => by show k.val = f + 0; omega)

/-- A plane given a trailing unit axis by a shape cast: the same entry, whatever the unit coordinate. -/
theorem plane_cast_unit_apply (p : (⟨2, ![B, N]⟩ : Shape).Idx → α)
    (h : (⟨2, ![B, N]⟩ : Shape).ShapeCasts ⟨3, ![B, N, 1]⟩) (b : Fin B) (n : Fin N) (u : Fin 1) :
    shapeCast ⟨3, ![B, N, 1]⟩ p h (ix3 b n u) = p (ix2 b n) := by
  refine shapeCast_apply p h (ix3 b n u) (ix2 b n) ?_
  rw [Shape.rowMajor_val_three, Shape.rowMajor_val_two]
  have hu : u.val = 0 := by have := u.isLt; omega
  show b.val * N + n.val = (b.val * N + n.val) * 1 + u.val
  omega

/-- A plane given a trailing unit axis by a `broadcast_in_dim` along its own two axes: the same entry. -/
theorem plane_bcast_unit_apply (p : (⟨2, ![B, N]⟩ : Shape).Idx → α)
    (h : (⟨2, ![B, N]⟩ : Shape).BroadcastsInDim ⟨3, ![B, N, 1]⟩ (![0, 1] : Fin 2 → Fin 3)) (b : Fin B) (n : Fin N) (u : Fin 1) :
    broadcastInDim ⟨3, ![B, N, 1]⟩ (![0, 1] : Fin 2 → Fin 3) h p (ix3 b n u) = p (ix2 b n) := by
  refine broadcastInDim_apply _ h p (ix3 b n u) (ix2 b n) (fun a => match a with
    | ⟨0, _⟩ => ?_
    | ⟨1, _⟩ => ?_)
  · show b.val = if B = 1 then 0 else b.val
    have := b.isLt; split <;> omega
  · show n.val = if N = 1 then 0 else n.val
    have := n.isLt; split <;> omega

/-- A rank-3 array given a unit axis before its last one by a `broadcast_in_dim` along `[0, 1, 3]`: the same entry. -/
theorem insert_unit_bcast_apply {M : Nat} (q : (⟨3, ![B, N, M]⟩ : Shape).Idx → α)
    (h : (⟨3, ![B, N, M]⟩ : Shape).BroadcastsInDim ⟨4, ![B, N, 1, M]⟩ (![0, 1, 3] : Fin 3 → Fin 4))
    (b : Fin B) (n : Fin N) (u : Fin 1) (s : Fin M) :
    broadcastInDim ⟨4, ![B, N, 1, M]⟩ (![0, 1, 3] : Fin 3 → Fin 4) h q (ix4 b n u s) = q (ix3 b n s) := by
  refine broadcastInDim_apply _ h q (ix4 b n u s) (ix3 b n s) (fun a => match a with
    | ⟨0, _⟩ => ?_
    | ⟨1, _⟩ => ?_
    | ⟨2, _⟩ => ?_)
  · show b.val = if B = 1 then 0 else b.val
    have := b.isLt; split <;> omega
  · show n.val = if N = 1 then 0 else n.val
    have := n.isLt; split <;> omega
  · show s.val = if M = 1 then 0 else s.val
    have := s.isLt; split <;> omega

/-- Eight words a record viewed row-major as four rows of two: entry `(r, s)` is word `2r + s`. -/
theorem split_eight_apply (x : (⟨3, ![B, N, 8]⟩ : Shape).Idx → α)
    (h : (⟨3, ![B, N, 8]⟩ : Shape).ShapeCasts ⟨4, ![B, N, 4, 2]⟩)
    (b : Fin B) (n : Fin N) (r : Fin 4) (s : Fin 2) (l : Fin 8) (hl : l.val = 2 * r.val + s.val) :
    shapeCast ⟨4, ![B, N, 4, 2]⟩ x h (ix4 b n r s) = x (ix3 b n l) := by
  refine shapeCast_apply x h (ix4 b n r s) (ix3 b n l) ?_
  rw [Shape.rowMajor_val_three, Shape.rowMajor_val_four]
  show (b.val * N + n.val) * 8 + l.val = ((b.val * N + n.val) * 4 + r.val) * 2 + s.val
  omega

/-- Pieces `[B, N, 1]` stacked along the last axis into `[B, N, K]`: the entry at last coordinate `k` is piece `k`'s. -/
theorem stack3_apply {K : Nat} (xs : List ((s : Shape) × (s.Idx → α)))
    (h : Shape.Concatenates (xs.map (·.1)) ⟨3, ![B, N, K]⟩ 2)
    (k : Nat) (hk : k < xs.length) (p : (⟨3, ![B, N, 1]⟩ : Shape).Idx → α) (hxk : xs[k] = ⟨⟨3, ![B, N, 1]⟩, p⟩)
    (hpre : (((xs.take k).map (·.1)).map fun s => if h : s.rank = (⟨3, ![B, N, K]⟩ : Shape).rank then s.size ((2 : Fin 3).cast h.symm) else 0).sum = k)
    (b : Fin B) (n : Fin N) (l : Fin K) (hl : l.val = k) :
    concatenate ⟨3, ![B, N, K]⟩ 2 xs h (ix3 b n l) = p (ix3 b n (0 : Fin 1)) :=
  concatenate_apply_piece (2 : Fin 3) xs h (ix3 b n l) k hk ⟨3, ![B, N, 1]⟩ p hxk rfl k hpre (ix3 b n (0 : Fin 1))
    (fun a ha => match a with
      | ⟨0, _⟩ => rfl
      | ⟨1, _⟩ => rfl
      | ⟨2, _⟩ => absurd rfl ha)
    (by show k + 0 = l.val; omega)

/-- Pieces `[B, N, 1, M]` stacked along axis 2 into `[B, N, R, M]`: the entry at axis-2 coordinate `k` is piece `k`'s. -/
theorem stack4_apply {R M : Nat} (xs : List ((s : Shape) × (s.Idx → α)))
    (h : Shape.Concatenates (xs.map (·.1)) ⟨4, ![B, N, R, M]⟩ 2)
    (k : Nat) (hk : k < xs.length) (p : (⟨4, ![B, N, 1, M]⟩ : Shape).Idx → α) (hxk : xs[k] = ⟨⟨4, ![B, N, 1, M]⟩, p⟩)
    (hpre : (((xs.take k).map (·.1)).map fun s => if h : s.rank = (⟨4, ![B, N, R, M]⟩ : Shape).rank then s.size ((2 : Fin 4).cast h.symm) else 0).sum = k)
    (b : Fin B) (n : Fin N) (r : Fin R) (s : Fin M) (hr : r.val = k) :
    concatenate ⟨4, ![B, N, R, M]⟩ 2 xs h (ix4 b n r s) = p (ix4 b n (0 : Fin 1) s) :=
  concatenate_apply_piece (2 : Fin 4) xs h (ix4 b n r s) k hk ⟨4, ![B, N, 1, M]⟩ p hxk rfl k hpre (ix4 b n (0 : Fin 1) s)
    (fun a ha => match a with
      | ⟨0, _⟩ => rfl
      | ⟨1, _⟩ => rfl
      | ⟨2, _⟩ => absurd rfl ha
      | ⟨3, _⟩ => rfl)
    (by show k + 0 = r.val; omega)

end Cert.Lib.RecordPlanes

end
-- ==== Proof.Corners.lean ====
/-
  What the box decoder computes. A box is four 32-bit words `(y, x, h, w)`: a corner, a height and a width. Its four
  corners, doubled, are — in two's-complement arithmetic on 32-bit words, so sums and products wrap —

      x1 = x · 2,   x2 = (x + w) · 2,   y1 = y · 2,   y2 = (y + h) · 2,

  listed clockwise from `(x1, y1)`:  `(x1, y1), (x2, y1), (x2, y2), (x1, y2)`. Written out flat that is the eight words
  `x1, y1, x2, y1, x2, y2, x1, y2` (`lane`); an array `[B, N, 4]` of boxes gives the array `[B, N, 8]` of those words (`flat`)
  and, the eight viewed as four rows of two, the array `[B, N, 4, 2]` of corners (`corners`): entry `(r, s)` is word `2r + s`.
  Stated at any extents `B`, `N`: the kernel computes `flat` block by block, the reference `corners` at once.
-/
import Idealize.ShloMosaic.PureOps
import Idealize.ShloMosaic.Lib.ValueIdx
import proofs.«421919_j79413945303925_4_alg».proof.Proof.LibRecordPlanes

noncomputable section

namespace Cert.Corners

open Idealize.ShloMosaic Idealize.ShloMosaic.ValueIdx

/-- The doubled left edge `x · 2`. -/
abbrev x1 (x : BitVec 32) : BitVec 32 := IntOp.muli x 2#32
/-- The doubled right edge `(x + w) · 2`. -/
abbrev x2 (x w : BitVec 32) : BitVec 32 := IntOp.muli (IntOp.addi x w) 2#32
/-- The doubled top edge `y · 2`. -/
abbrev y1 (y : BitVec 32) : BitVec 32 := IntOp.muli y 2#32
/-- The doubled bottom edge `(y + h) · 2`. -/
abbrev y2 (y h : BitVec 32) : BitVec 32 := IntOp.muli (IntOp.addi y h) 2#32

/-- Word `l` of the eight a box `(y, x, h, w)` decodes to: `x1, y1, x2, y1, x2, y2, x1, y2`. -/
def lane (y x h w : BitVec 32) (l : Fin 8) : BitVec 32 :=
  match l with
  | ⟨0, _⟩ => x1 x
  | ⟨1, _⟩ => y1 y
  | ⟨2, _⟩ => x2 x w
  | ⟨3, _⟩ => y1 y
  | ⟨4, _⟩ => x2 x w
  | ⟨5, _⟩ => y2 y h
  | ⟨6, _⟩ => x1 x
  | ⟨7, _⟩ => y2 y h

variable {B N : Nat}

/-- The eight words of box `(b, n)`, one array entry each. -/
def flat (A : (⟨3, ![B, N, 4]⟩ : Shape).Idx → BitVec 32) : (⟨3, ![B, N, 8]⟩ : Shape).Idx → BitVec 32 := fun j =>
  lane (A (ix3 (j 0) (j 1) (0 : Fin 4))) (A (ix3 (j 0) (j 1) (1 : Fin 4))) (A (ix3 (j 0) (j 1) (2 : Fin 4)))
    (A (ix3 (j 0) (j 1) (3 : Fin 4))) (j 2)

/-- The words of two arrays of boxes agree at a pair of entries when the lane is the same and the two boxes have the same
    four fields: how a block of `flat` is `flat` of the block. -/
theorem flat_congr {B' N' : Nat} (X : (⟨3, ![B, N, 4]⟩ : Shape).Idx → BitVec 32) (A : (⟨3, ![B', N', 4]⟩ : Shape).Idx → BitVec 32)
    (j : (⟨3, ![B, N, 8]⟩ : Shape).Idx) (i : (⟨3, ![B', N', 8]⟩ : Shape).Idx) (hl : (i 2).val = (j 2).val)
    (hX : ∀ f : Fin 4, X (ix3 (j 0) (j 1) f) = A (ix3 (i 0) (i 1) f)) :
    flat X j = flat A i := by
  unfold flat
  rw [hX 0, hX 1, hX 2, hX 3]
  exact congrArg (lane _ _ _ _) (Fin.ext hl.symm)

/-- Word `2r + s` of eight, for a row `r` of four and a column `s` of two. -/
abbrev word (r : Fin 4) (s : Fin 2) : Fin 8 := ⟨2 * r.val + s.val, by have := r.isLt; have := s.isLt; omega⟩

/-- Corner `r` of box `(b, n)`, coordinate `s` (`0` the abscissa, `1` the ordinate). -/
def corners (A : (⟨3, ![B, N, 4]⟩ : Shape).Idx → BitVec 32) : (⟨4, ![B, N, 4, 2]⟩ : Shape).Idx → BitVec 32 := fun i =>
  flat A (ix3 (i 0) (i 1) (word (i 2) (i 3)))

/-- The flat words viewed row-major as four rows of two are the corners. -/
theorem reshape_flat (A : (⟨3, ![B, N, 4]⟩ : Shape).Idx → BitVec 32)
    (h : (⟨3, ![B, N, 8]⟩ : Shape).ShapeCasts ⟨4, ![B, N, 4, 2]⟩) :
    shapeCast ⟨4, ![B, N, 4, 2]⟩ (flat A) h = corners A := by
  funext i
  obtain ⟨b, n, r, s, rfl⟩ : ∃ (b : Fin B) (n : Fin N) (r : Fin 4) (s : Fin 2), i = ix4 b n r s := ⟨i 0, i 1, i 2, i 3, eq_ix4 i⟩
  exact Cert.Lib.RecordPlanes.split_eight_apply (flat A) h b n r s (word r s) rfl

end Cert.Corners

end
-- ==== Proof.KernelLanes.lean ====
/-
  One grid point of the kernel. The body loads a block of `16 × 400` boxes, takes the four field planes `y, x, h, w` apart,
  forms `x · 2`, `(x + w) · 2`, `y · 2`, `(y + h) · 2` plane by plane, gives each plane a trailing unit axis and stacks eight
  of them along it in the order `x1, y1, x2, y1, x2, y2, x1, y2`. Read at `(a, n, l)` that stack is piece `l` at `(a, n)`,
  which is word `l` of box `(a, n)`'s eight: the stored value is the block's `Corners.flat`. No arithmetic law is used:
  both sides apply the same word operations to the same words in the same order.
-/
import proofs.«421919_j79413945303925_4_alg».proof.Proof.Gen.KernelIdeal.Skeleton
import proofs.«421919_j79413945303925_4_alg».proof.Proof.Corners

noncomputable section

namespace Cert.KernelIdeal.Lanes

open Idealize.ShloMosaic Idealize.ShloMosaic.ValueIdx
open Cert.KernelIdeal Cert.KernelIdeal.Gen Cert.Corners Cert.Lib.RecordPlanes

variable {F : FTy → Type} [FloatOps F]

/-- The value the body stores is the eight words of every box of the block it loaded. -/
theorem payload_eq_flat (x0 : Vec F S16x400x4 .i32) : k0_pay1 x0 = flat x0 := by
  funext j
  obtain ⟨a, n, l, rfl⟩ : ∃ (a : Fin 16) (n : Fin 400) (l : Fin 8), j = ix3 a n l := ⟨j 0, j 1, j 2, eq_ix3 j⟩
  unfold k0_pay1
  match l with
  | ⟨0, _⟩ =>
    refine (stack3_apply (B := 16) (N := 400) _ _ 0 (by simp) _ (by rfl) (by rfl) a n _ (by rfl)).trans ?_
    refine (plane_cast_unit_apply _ _ a n 0).trans ?_
    exact congrArg (fun z => IntOp.muli z 2#32) (field_plane_apply 1 x0 _ _ a n (1 : Fin 4) rfl)
  | ⟨1, _⟩ =>
    refine (stack3_apply (B := 16) (N := 400) _ _ 1 (by simp) _ (by rfl) (by rfl) a n _ (by rfl)).trans ?_
    refine (plane_cast_unit_apply _ _ a n 0).trans ?_
    exact congrArg (fun z => IntOp.muli z 2#32) (field_plane_apply 0 x0 _ _ a n (0 : Fin 4) rfl)
  | ⟨2, _⟩ =>
    refine (stack3_apply (B := 16) (N := 400) _ _ 2 (by simp) _ (by rfl) (by rfl) a n _ (by rfl)).trans ?_
    refine (plane_cast_unit_apply _ _ a n 0).trans ?_
    exact congrArg₂ (fun p q => IntOp.muli (IntOp.addi p q) 2#32) (field_plane_apply 1 x0 _ _ a n (1 : Fin 4) rfl) (field_plane_apply 3 x0 _ _ a n (3 : Fin 4) rfl)
  | ⟨3, _⟩ =>
    refine (stack3_apply (B := 16) (N := 400) _ _ 3 (by simp) _ (by rfl) (by rfl) a n _ (by rfl)).trans ?_
    refine (plane_cast_unit_apply _ _ a n 0).trans ?_
    exact congrArg (fun z => IntOp.muli z 2#32) (field_plane_apply 0 x0 _ _ a n (0 : Fin 4) rfl)
  | ⟨4, _⟩ =>
    refine (stack3_apply (B := 16) (N := 400) _ _ 4 (by simp) _ (by rfl) (by rfl) a n _ (by rfl)).trans ?_
    refine (plane_cast_unit_apply _ _ a n 0).trans ?_
    exact congrArg₂ (fun p q => IntOp.muli (IntOp.addi p q) 2#32) (field_plane_apply 1 x0 _ _ a n (1 : Fin 4) rfl) (field_plane_apply 3 x0 _ _ a n (3 : Fin 4) rfl)
  | ⟨5, _⟩ =>
    refine (stack3_apply (B := 16) (N := 400) _ _ 5 (by simp) _ (by rfl) (by rfl) a n _ (by rfl)).trans ?_
    refine (plane_cast_unit_apply _ _ a n 0).trans ?_
    exact congrArg₂ (fun p q => IntOp.muli (IntOp.addi p q) 2#32) (field_plane_apply 0 x0 _ _ a n (0 : Fin 4) rfl) (field_plane_apply 2 x0 _ _ a n (2 : Fin 4) rfl)
  | ⟨6, _⟩ =>
    refine (stack3_apply (B := 16) (N := 400) _ _ 6 (by simp) _ (by rfl) (by rfl) a n _ (by rfl)).trans ?_
    refine (plane_cast_unit_apply _ _ a n 0).trans ?_
    exact congrArg (fun z => IntOp.muli z 2#32) (field_plane_apply 1 x0 _ _ a n (1 : Fin 4) rfl)
  | ⟨7, _⟩ =>
    refine (stack3_apply (B := 16) (N := 400) _ _ 7 (by simp) _ (by rfl) (by rfl) a n _ (by rfl)).trans ?_
    refine (plane_cast_unit_apply _ _ a n 0).trans ?_
    exact congrArg₂ (fun p q => IntOp.muli (IntOp.addi p q) 2#32) (field_plane_apply 0 x0 _ _ a n (0 : Fin 4) rfl) (field_plane_apply 2 x0 _ _ a n (2 : Fin 4) rfl)

end Cert.KernelIdeal.Lanes

end
-- ==== Proof.KernelArray.lean ====
/-
  From grid points to the whole array, and through the reshape after the call. The grid is `4 × 250`: point `(p, q)` loads
  boxes `[16p, 16p + 16) × [400q, 400q + 400)` and writes back the same rows and columns of the `[64, 100000, 8]` words array;
  on the last axis both blocks are whole. What a point writes back is the eight words of its block's boxes
  (`Lanes.payload_eq_flat`), and a block's box `(a, n)` is the array's box `(16p + a, 400q + n)`, so the written block is that
  block of `Corners.flat` of the whole argument (`flushed_eq`). Every entry `(i₀, i₁, l)` lies in the block of point
  `(i₀ / 16, i₁ / 400)` (`cover`), so after the run the words array is `flat` of the argument (`words`). The one operation after
  the call views it row-major as `[64, 100000, 4, 2]`: the corners (`result`, by `Corners.reshape_flat`).
-/
import proofs.«421919_j79413945303925_4_alg».proof.Proof.Gen.KernelIdeal.Frame
import proofs.«421919_j79413945303925_4_alg».proof.Proof.KernelLanes
import Idealize.ShloMosaic.Lib.Pipeline.Value
import Idealize.ShloMosaic.Lib.StableHlo.Run

set_option maxRecDepth 16384

noncomputable section

namespace Cert.KernelIdeal.Boxes

open Cert.KernelIdeal Cert.KernelIdeal.Gen Idealize.ShloMosaic Idealize.ShloMosaic.TcCoe Idealize.SL.Sem
open Idealize.ShloMosaic.Pipeline (Dat)
open Idealize.ShloMosaic.ValueIdx Cert.Corners

variable {F : FTy → Type} [FloatOps F]
variable (m : (ℓ : Loc nD τ sig) → Buf (Elt F) ℓ) (ρ : Dev nD → PrngReg)

/-- Both windows sit at offset zero of their staging buffers. -/
theorem offset_zero : (![0, 0, 0] : Fin 3 → Nat) = fun _ => 0 := funext fun a => by fin_cases a <;> rfl

/-- The index maps, decided over the thousand points: point `t` is `(t / 250, t % 250)`, both windows take block
    `(t / 250, t % 250, 0)`. -/
theorem index_facts : ∀ t : Fin cfg0.N,
    win0_0.index t (0 : Fin 3) = t.val / 250 ∧ win0_0.index t (1 : Fin 3) = t.val % 250 ∧ win0_0.index t (2 : Fin 3) = 0
    ∧ win0_1.index t (0 : Fin 3) = t.val / 250 ∧ win0_1.index t (1 : Fin 3) = t.val % 250 ∧ win0_1.index t (2 : Fin 3) = 0 :=
  (by decide +kernel : ∀ t : Fin grid0.N, _)

/-- What point `t` writes back is block `t` of the words of the whole argument. -/
theorem flushed_eq (c : Dev nD) (t : Fin cfg0.N) :
    (dats m 0 c).flushed 1 t = ((cfg0.win 1).blk t).view.read (Elt F) (flat (V m c main_arg0)) := by
  show (cfg0.win 1).cut (grid0.coords t) ((dats m 0 c).after 1 t) = _
  rw [after0_1]
  unfold out0_1
  rw [View.canon_unit_zero offset_zero]
  simp only [View.ld_unit_zero (S := S16x400x4) offset_zero]
  rw [Cert.KernelIdeal.Lanes.payload_eq_flat]
  obtain ⟨e0, e1, e2, e3, e4, e5⟩ := index_facts t
  funext j
  refine flat_congr (B := 16) (N := 400) (B' := 64) (N' := 100000) (iblk m c 0 t) (V m c main_arg0) j
    (((cfg0.win 1).blk t).view.emb j) ?_ ?_
  · show win0_1.index t (2 : Fin 3) * 8 + 1 * (j 2).val = (j 2).val
    omega
  · intro f
    show V m c main_arg0 (((cfg0.win 0).blk t).view.emb (ix3 (j 0) (j 1) f)) = _
    refine congrArg (V m c main_arg0) (funext fun a => Fin.ext ?_)
    match a with
    | ⟨0, _⟩ =>
      show win0_0.index t (0 : Fin 3) * 16 + 1 * (j 0).val = win0_1.index t (0 : Fin 3) * 16 + 1 * (j 0).val
      omega
    | ⟨1, _⟩ =>
      show win0_0.index t (1 : Fin 3) * 400 + 1 * (j 1).val = win0_1.index t (1 : Fin 3) * 400 + 1 * (j 1).val
      omega
    | ⟨2, _⟩ =>
      show win0_0.index t (2 : Fin 3) * 4 + 1 * f.val = f.val
      omega

/-- An entry of the words array is in point `t`'s block iff each coordinate is in the block's range on its axis. -/
theorem mem_blk (t : Fin cfg0.N) (i : S64x100000x8.Idx) :
    i ∈ ((cfg0.win 1).blk t).view.set ↔ ∀ a : Fin 3, win0_1.index t a * S16x400x8.size a ≤ (i a).val ∧ (i a).val < win0_1.index t a * S16x400x8.size a + S16x400x8.size a := by
  show i ∈ ((View.whole main_v0).slice (win0_1.rect t)).set ↔ _
  rw [View.set_slice_whole, Rect.mem_set_unit]
  exact Iff.rfl

/-- Every entry is in the block of the point `(i₀ / 16, i₁ / 400)`, which writes back. -/
theorem cover (i : S64x100000x8.Idx) :
    ∃ t : Fin cfg0.N, (cfg0.win 1).flush t = true ∧ i ∈ ((cfg0.win 1).blk t).view.set := by
  have h0 : (i 0).val < 64 := (i 0).isLt
  have h1 : (i 1).val < 100000 := (i 1).isLt
  have h2 : (i 2).val < 8 := (i 2).isLt
  let t : Fin cfg0.N := ⟨(i 0).val / 16 * 250 + (i 1).val / 400, by rw [show cfg0.N = 1000 from N_0]; omega⟩
  have ht : t.val = (i 0).val / 16 * 250 + (i 1).val / 400 := rfl
  obtain ⟨e0, e1, e2, e3, e4, e5⟩ := index_facts t
  refine ⟨t, flush0_1 t, ?_⟩
  rw [mem_blk]
  intro a
  match a with
  | ⟨0, _⟩ =>
    show win0_1.index t (0 : Fin 3) * 16 ≤ (i 0).val ∧ (i 0).val < win0_1.index t (0 : Fin 3) * 16 + 16
    omega
  | ⟨1, _⟩ =>
    show win0_1.index t (1 : Fin 3) * 400 ≤ (i 1).val ∧ (i 1).val < win0_1.index t (1 : Fin 3) * 400 + 400
    omega
  | ⟨2, _⟩ =>
    show win0_1.index t (2 : Fin 3) * 8 ≤ (i 2).val ∧ (i 2).val < win0_1.index t (2 : Fin 3) * 8 + 8
    omega

/-- After the run the words array holds the eight words of every box of the argument. -/
theorem words (c : Dev nD) : (dats m 0 c).arrAt 1 cfg0.N = flat (V m c main_arg0) :=
  (dats m 0 c).arrAt_eq_of_cover 1 (flat (V m c main_arg0)) (fun t _ => flushed_eq m c t) cover

/-- The reshape after the call leaves the corners of the argument's boxes in the result. -/
theorem result (c : Dev nD) :
    Pipeline.afterTail₀ cfgs (dats m) 0 (V0 m) [hostOps1] c main_v1 = corners (m ((c : Thread nD τ).loc main_arg0)) := by
  unfold Pipeline.afterTail₀
  show StableHlo.after hostOps1 _ (Proc.devRef .tc main_v1) = _
  after_results
  funext i
  exact (congrArg (fun z : S64x100000x8.Idx → BitVec 32 => shapeCast S64x100000x4x2 z shapeCasts_S64x100000x8_S64x100000x4x2 i)
      ((Pipeline.withArrays_arr spec0 launch0.win.arr_inj c (V0 m c) (fun w => (dats m 0 c).arrAt w cfg0.N) 1).trans (words m c))).trans
    (congrFun (reshape_flat (V m c main_arg0) shapeCasts_S64x100000x8_S64x100000x4x2) i)

/-- The kernel's run, read: every weakly fair execution terminates with the result array holding the corners of the
    argument's boxes and the argument unchanged. The result is no window's array: it is what the reshape after the call
    leaves; the argument is staged by the input window, which never writes it back. -/
theorem run : θ_run defs (onTc (τ := τ) (main (F := F))) ⟨m, fun _ => 0, ρ⟩ fun r => ∀ c : Dev nD,
      r.2.mem ((c : Thread nD τ).loc main_v1) = corners (m ((c : Thread nD τ).loc main_arg0))
      ∧ r.2.mem ((c : Thread nD τ).loc main_arg0) = m ((c : Thread nD τ).loc main_arg0) :=
  (θ_run defs _ _).mono (fun r h c =>
      ⟨((h c).2 main_v1 (Pipeline.mem_restRefs_of main_v1 (by decide) (by decide))).trans (result m c),
       ((h c).1 0).trans (((dats m 0 c).arrAt_in 0 rfl _).trans ((A_eq m c 0).trans (V_main_arg0 m c)))⟩)
    (run_main m ρ)

end Cert.KernelIdeal.Boxes

end
-- ==== Proof.ReferenceCorners.lean ====
/-
  The reference, read at an index. It takes the four field planes `y, x, h, w` of the boxes apart, forms `x · 2`,
  `(x + w) · 2`, `y · 2`, `(y + h) · 2`, pairs them as the four corners `(x1, y1)`, `(x2, y1)`, `(x2, y2)`, `(x1, y2)` — each pair
  two planes given a trailing unit axis and stacked along it — and stacks the four pairs, each given a unit axis before
  its last, along that axis. Read at `(b, n, r, s)`: pair `r` at `(b, n, s)`, which is its plane `s` at `(b, n)`: corner `r`,
  coordinate `s` of box `(b, n)`, that is `Corners.corners`. As on the kernel's side no arithmetic law is used.
-/
import proofs.«421919_j79413945303925_4_alg».proof.Proof.Gen.ReferenceIdeal.Read
import proofs.«421919_j79413945303925_4_alg».proof.Proof.Corners

noncomputable section

namespace Cert.ReferenceIdeal.RefCorners

open Idealize.ShloMosaic Idealize.ShloMosaic.ValueIdx
open Cert.ReferenceIdeal Cert.ReferenceIdeal.Gen Cert.ReferenceIdeal.Read Cert.Corners Cert.Lib.RecordPlanes

variable {F : FTy → Type} [FloatOps F]

/-! ## The four planes -/

/-- The plane of doubled left edges. -/
theorem x1_plane (A : (⟨S64x100000x4, .i32⟩ : BufTy).Contents (Elt F)) (b : Fin 64) (n : Fin 100000) :
    val_main_v9 (F := F) A (ix2 b n) = x1 (A (ix3 b n (1 : Fin 4))) := by
  unfold val_main_v9 val_main_v3 val_main_v2
  exact congrArg (fun z => IntOp.muli z 2#32) (field_plane_apply 1 A _ _ b n (1 : Fin 4) rfl)

/-- The plane of doubled right edges. -/
theorem x2_plane (A : (⟨S64x100000x4, .i32⟩ : BufTy).Contents (Elt F)) (b : Fin 64) (n : Fin 100000) :
    val_main_v12 (F := F) A (ix2 b n) = x2 (A (ix3 b n (1 : Fin 4))) (A (ix3 b n (3 : Fin 4))) := by
  unfold val_main_v12 val_main_v10 val_main_v3 val_main_v2 val_main_v7 val_main_v6
  exact congrArg₂ (fun p q => IntOp.muli (IntOp.addi p q) 2#32) (field_plane_apply 1 A _ _ b n (1 : Fin 4) rfl)
    (field_plane_apply 3 A _ _ b n (3 : Fin 4) rfl)

/-- The plane of doubled top edges. -/
theorem y1_plane (A : (⟨S64x100000x4, .i32⟩ : BufTy).Contents (Elt F)) (b : Fin 64) (n : Fin 100000) :
    val_main_v14 (F := F) A (ix2 b n) = y1 (A (ix3 b n (0 : Fin 4))) := by
  unfold val_main_v14 val_main_v1 val_main_v0
  exact congrArg (fun z => IntOp.muli z 2#32) (field_plane_apply 0 A _ _ b n (0 : Fin 4) rfl)

/-- The plane of doubled bottom edges. -/
theorem y2_plane (A : (⟨S64x100000x4, .i32⟩ : BufTy).Contents (Elt F)) (b : Fin 64) (n : Fin 100000) :
    val_main_v17 (F := F) A (ix2 b n) = y2 (A (ix3 b n (0 : Fin 4))) (A (ix3 b n (2 : Fin 4))) := by
  unfold val_main_v17 val_main_v15 val_main_v1 val_main_v0 val_main_v5 val_main_v4
  exact congrArg₂ (fun p q => IntOp.muli (IntOp.addi p q) 2#32) (field_plane_apply 0 A _ _ b n (0 : Fin 4) rfl)
    (field_plane_apply 2 A _ _ b n (2 : Fin 4) rfl)

/-! ## The stacked corners -/

/-- The reference's result is the array of corners of its argument. -/
theorem result_eq_corners (A : (⟨S64x100000x4, .i32⟩ : BufTy).Contents (Elt F)) :
    val_main_v34 (F := F) A = corners A := by
  funext i
  obtain ⟨b, n, r, s, rfl⟩ : ∃ (b : Fin 64) (n : Fin 100000) (r : Fin 4) (s : Fin 2), i = ix4 b n r s :=
    ⟨i 0, i 1, i 2, i 3, eq_ix4 i⟩
  unfold val_main_v34
  match r, s with
  | ⟨0, _⟩, ⟨0, _⟩ =>
    refine (stack4_apply (B := 64) (N := 100000) _ _ 0 (by simp) _ (by rfl) (by rfl) b n _ _ (by rfl)).trans ?_
    unfold val_main_v30
    refine (insert_unit_bcast_apply _ _ b n 0 _).trans ?_
    unfold val_main_v20
    refine (stack3_apply (B := 64) (N := 100000) _ _ 0 (by simp) _ (by rfl) (by rfl) b n _ (by rfl)).trans ?_
    unfold val_main_v18
    refine (plane_bcast_unit_apply _ _ b n 0).trans ?_
    exact x1_plane A b n
  | ⟨0, _⟩, ⟨1, _⟩ =>
    refine (stack4_apply (B := 64) (N := 100000) _ _ 0 (by simp) _ (by rfl) (by rfl) b n _ _ (by rfl)).trans ?_
    unfold val_main_v30
    refine (insert_unit_bcast_apply _ _ b n 0 _).trans ?_
    unfold val_main_v20
    refine (stack3_apply (B := 64) (N := 100000) _ _ 1 (by simp) _ (by rfl) (by rfl) b n _ (by rfl)).trans ?_
    unfold val_main_v19
    refine (plane_bcast_unit_apply _ _ b n 0).trans ?_
    exact y1_plane A b n
  | ⟨1, _⟩, ⟨0, _⟩ =>
    refine (stack4_apply (B := 64) (N := 100000) _ _ 1 (by simp) _ (by rfl) (by rfl) b n _ _ (by rfl)).trans ?_
    unfold val_main_v31
    refine (insert_unit_bcast_apply _ _ b n 0 _).trans ?_
    unfold val_main_v23
    refine (stack3_apply (B := 64) (N := 100000) _ _ 0 (by simp) _ (by rfl) (by rfl) b n _ (by rfl)).trans ?_
    unfold val_main_v21
    refine (plane_bcast_unit_apply _ _ b n 0).trans ?_
    exact x2_plane A b n
  | ⟨1, _⟩, ⟨1, _⟩ =>
    refine (stack4_apply (B := 64) (N := 100000) _ _ 1 (by simp) _ (by rfl) (by rfl) b n _ _ (by rfl)).trans ?_
    unfold val_main_v31
    refine (insert_unit_bcast_apply _ _ b n 0 _).trans ?_
    unfold val_main_v23
    refine (stack3_apply (B := 64) (N := 100000) _ _ 1 (by simp) _ (by rfl) (by rfl) b n _ (by rfl)).trans ?_
    unfold val_main_v22
    refine (plane_bcast_unit_apply _ _ b n 0).trans ?_
    exact y1_plane A b n
  | ⟨2, _⟩, ⟨0, _⟩ =>
    refine (stack4_apply (B := 64) (N := 100000) _ _ 2 (by simp) _ (by rfl) (by rfl) b n _ _ (by rfl)).trans ?_
    unfold val_main_v32
    refine (insert_unit_bcast_apply _ _ b n 0 _).trans ?_
    unfold val_main_v26
    refine (stack3_apply (B := 64) (N := 100000) _ _ 0 (by simp) _ (by rfl) (by rfl) b n _ (by rfl)).trans ?_
    unfold val_main_v24
    refine (plane_bcast_unit_apply _ _ b n 0).trans ?_
    exact x2_plane A b n
  | ⟨2, _⟩, ⟨1, _⟩ =>
    refine (stack4_apply (B := 64) (N := 100000) _ _ 2 (by simp) _ (by rfl) (by rfl) b n _ _ (by rfl)).trans ?_
    unfold val_main_v32
    refine (insert_unit_bcast_apply _ _ b n 0 _).trans ?_
    unfold val_main_v26
    refine (stack3_apply (B := 64) (N := 100000) _ _ 1 (by simp) _ (by rfl) (by rfl) b n _ (by rfl)).trans ?_
    unfold val_main_v25
    refine (plane_bcast_unit_apply _ _ b n 0).trans ?_
    exact y2_plane A b n
  | ⟨3, _⟩, ⟨0, _⟩ =>
    refine (stack4_apply (B := 64) (N := 100000) _ _ 3 (by simp) _ (by rfl) (by rfl) b n _ _ (by rfl)).trans ?_
    unfold val_main_v33
    refine (insert_unit_bcast_apply _ _ b n 0 _).trans ?_
    unfold val_main_v29
    refine (stack3_apply (B := 64) (N := 100000) _ _ 0 (by simp) _ (by rfl) (by rfl) b n _ (by rfl)).trans ?_
    unfold val_main_v27
    refine (plane_bcast_unit_apply _ _ b n 0).trans ?_
    exact x1_plane A b n
  | ⟨3, _⟩, ⟨1, _⟩ =>
    refine (stack4_apply (B := 64) (N := 100000) _ _ 3 (by simp) _ (by rfl) (by rfl) b n _ _ (by rfl)).trans ?_
    unfold val_main_v33
    refine (insert_unit_bcast_apply _ _ b n 0 _).trans ?_
    unfold val_main_v29
    refine (stack3_apply (B := 64) (N := 100000) _ _ 1 (by simp) _ (by rfl) (by rfl) b n _ (by rfl)).trans ?_
    unfold val_main_v28
    refine (plane_bcast_unit_apply _ _ b n 0).trans ?_
    exact y2_plane A b n

end Cert.ReferenceIdeal.RefCorners

end
-- ==== Proof.lean ====
/-
  A box decoder and its reference compute the same array. The argument is `[64, 100000, 4]` 32-bit words: for each of 64
  batch rows, 100000 boxes `(y, x, h, w)`. The result is `[64, 100000, 4, 2]`: each box's four corners, doubled, clockwise
  from `(x1, y1)`, with

      x1 = x · 2,   x2 = (x + w) · 2,   y1 = y · 2,   y2 = (y + h) · 2

  in wrapping 32-bit arithmetic (`Corners.corners`). Every value is an integer word, so the idealized reading changes
  nothing: there is no float, no rounding, no named constant, and nothing is asked of the input.

  The kernel walks a `4 × 250` grid; each point loads `16 × 400` boxes, stacks the eight words `x1, y1, x2, y1, x2, y2, x1, y2`
  of every box along the last axis (`Lanes.payload_eq_flat`) and writes the block back; the blocks tile the `[64, 100000, 8]`
  words array, which therefore ends holding the eight words of every box (`Boxes.words`), and the reshape after the call
  views the eight as four rows of two (`Boxes.result`). The reference forms the same four planes, pairs them and stacks
  the pairs (`RefCorners.result_eq_corners`). Both sides apply the same word operations to the same words in the same
  order, so no law of arithmetic is used anywhere: the whole content is where each word lands.

  The three programs terminate without fault and leave the argument as it was: for the two kernel programs that is their
  frame; the reference's is its run with the result dropped. The idealization rewrote no operation, so there is nothing
  to preserve.
-/
import proofs.«421919_j79413945303925_4_alg».proof.Defs
import proofs.«421919_j79413945303925_4_alg».proof.Proof.Gen.Kernel
import proofs.«421919_j79413945303925_4_alg».proof.Proof.Gen.Kernel.Skeleton
import proofs.«421919_j79413945303925_4_alg».proof.Proof.Gen.Kernel.Launch
import proofs.«421919_j79413945303925_4_alg».proof.Proof.Gen.Kernel.Points
import proofs.«421919_j79413945303925_4_alg».proof.Proof.Gen.Kernel.Frame
import proofs.«421919_j79413945303925_4_alg».proof.Proof.Gen.KernelIdeal
import proofs.«421919_j79413945303925_4_alg».proof.Proof.Gen.KernelIdeal.Skeleton
import proofs.«421919_j79413945303925_4_alg».proof.Proof.Gen.KernelIdeal.Launch
import proofs.«421919_j79413945303925_4_alg».proof.Proof.Gen.KernelIdeal.Points
import proofs.«421919_j79413945303925_4_alg».proof.Proof.Gen.KernelIdeal.Frame
import proofs.«421919_j79413945303925_4_alg».proof.Proof.Gen.ReferenceIdeal
import proofs.«421919_j79413945303925_4_alg».proof.Proof.Gen.ReferenceIdeal.Run
import proofs.«421919_j79413945303925_4_alg».proof.Proof.Gen.ReferenceIdeal.Read
import proofs.«421919_j79413945303925_4_alg».proof.Proof.Gen.Pre_any_inputs
import proofs.«421919_j79413945303925_4_alg».proof.Proof.KernelArray
import proofs.«421919_j79413945303925_4_alg».proof.Proof.ReferenceCorners
import Idealize.ShloMosaic.Adequacy
import Idealize.ShloMosaic.Init

noncomputable section

namespace Cert.Proof

open Idealize.ShloMosaic Idealize.SL.Sem

/-- The kernel as printed runs and leaves its argument alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its argument alone: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the boxes, both programs end with the corners of those boxes in their result. -/
theorem algebraic : Cert.algebraic_KernelIdeal_ReferenceIdeal := by
  intro m ρ m' ρ' _ hagree
  refine ⟨fun c => Cert.Corners.corners (m ((c.tc : Thread Cert.KernelIdeal.nD Cert.KernelIdeal.τ).loc Cert.KernelIdeal.main_arg0)),
    Cert.KernelIdeal.Boxes.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefCorners.result_eq_corners, hagree c]

theorem claim : Cert.Claim :=
  ⟨Cert.Kernel.Gen.facts, Cert.KernelIdeal.Gen.facts, Cert.ReferenceIdeal.Gen.facts, Cert.Pre_any_inputs.Gen.facts,
    frame_kernel, frame_kernel_ideal, frame_reference, preserves, algebraic⟩

end Cert.Proof

end
